-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 38
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/- One layer of a mean-aggregating graph convolution, as a function of its operands, entry by entry.

   For node `n` and output feature `j`, with `agg` the matrix of neighbourhood means, `x` the node features,
   `wl`, `wr` the two weight matrices (rows indexed by the OUTPUT feature) and `b` the bias:

     out[n, j] = max ( (Σ_k agg[n, k] · wl[j, k] + b[j]) + Σ_k x[n, k] · wr[j, k] ,  0 ).

   The grouping of the two additions is the one both programs use, so no law of the extended reals beyond
   reading each operation at an index is needed to compare them. The zero is kept as the float pattern it is printed as. -/
import Idealize.ShloMosaic.PureOps.Ideal
import Idealize.ShloMosaic.Lib.ValueIdx

noncomputable section

namespace Cert.Layer

open Idealize.ShloMosaic Idealize.ShloMosaic.ValueIdx
open scoped BigOperators

/-- Node-by-feature matrices: 100000 nodes, 128 features. -/
abbrev Nodes : Shape := ⟨2, ![100000, 128]⟩
/-- A weight matrix: output feature by input feature. -/
abbrev Weights : Shape := ⟨2, ![128, 128]⟩
/-- The bias vector. -/
abbrev Bias : Shape := ⟨1, ![128]⟩

/-- The float zero both programs clamp against. -/
abbrev zero : EReal := Ideal.ofBits .f32 0x00000000#32

/-- One entry of the layer's output: node `n`, output feature `j`. -/
def entry (agg x : Nodes.Idx → EReal) (wl : Weights.Idx → EReal) (b : Bias.Idx → EReal) (wr : Weights.Idx → EReal)
    (n : Fin 100000) (j : Fin 128) : EReal :=
  max (((∑ k : Fin 128, agg (ix2 n k) * wl (ix2 j k)) + b (ix1 j)) + ∑ k : Fin 128, x (ix2 n k) * wr (ix2 j k)) zero

/-- The layer's output from the neighbourhood means `agg`, the features `x`, the weights and the bias. -/
def layer (agg x : Nodes.Idx → EReal) (wl : Weights.Idx → EReal) (b : Bias.Idx → EReal) (wr : Weights.Idx → EReal) :
    Nodes.Idx → EReal := fun i => entry agg x wl b wr (i 0) (i 1)

/-- The same entry from the operands as the tiled program receives them: the weights transposed (input feature by
    output feature) and the bias as a one-row matrix. -/
def entryT (agg x : Nodes.Idx → EReal) (wlT : Weights.Idx → EReal) (brow : (⟨2, ![1, 128]⟩ : Shape).Idx → EReal)
    (wrT : Weights.Idx → EReal) (n : Fin 100000) (j : Fin 128) : EReal :=
  max (((∑ k : Fin 128, agg (ix2 n k) * wlT (ix2 k j)) + brow (ix2 0 j)) + ∑ k : Fin 128, x (ix2 n k) * wrT (ix2 k j)) zero

/-- The layer from transposed weights and a one-row bias. -/
def layerT (agg x : Nodes.Idx → EReal) (wlT : Weights.Idx → EReal) (brow : (⟨2, ![1, 128]⟩ : Shape).Idx → EReal)
    (wrT : Weights.Idx → EReal) : Nodes.Idx → EReal := fun i => entryT agg x wlT brow wrT (i 0) (i 1)

/-- Entry by entry, transposed weights and a one-row bias that read the original operands give the same value. -/
theorem entryT_eq (agg x : Nodes.Idx → EReal) (wl wr wlT wrT : Weights.Idx → EReal) (b : Bias.Idx → EReal)
    (brow : (⟨2, ![1, 128]⟩ : Shape).Idx → EReal)
    (hl : ∀ (k j : Fin 128), wlT (ix2 k j) = wl (ix2 j k)) (hr : ∀ (k j : Fin 128), wrT (ix2 k j) = wr (ix2 j k))
    (hb : ∀ j : Fin 128, brow (ix2 0 j) = b (ix1 j)) (n : Fin 100000) (j : Fin 128) :
    entryT agg x wlT brow wrT n j = entry agg x wl b wr n j := by
  unfold entryT entry
  simp only [hl, hr, hb]

/-- Transposed weights and a one-row bias that read the original operands give the same layer. -/
theorem layerT_eq (agg x : Nodes.Idx → EReal) (wl wr wlT wrT : Weights.Idx → EReal) (b : Bias.Idx → EReal)
    (brow : (⟨2, ![1, 128]⟩ : Shape).Idx → EReal)
    (hl : ∀ (k j : Fin 128), wlT (ix2 k j) = wl (ix2 j k)) (hr : ∀ (k j : Fin 128), wrT (ix2 k j) = wr (ix2 j k))
    (hb : ∀ j : Fin 128, brow (ix2 0 j) = b (ix1 j)) :
    layerT agg x wlT brow wrT = layer agg x wl b wr := by
  funext i
  exact entryT_eq agg x wl wr wlT wrT b brow hl hr hb (i 0) (i 1)

end Cert.Layer

end
-- ==== Proof.RefLayer.lean ====
/- The reference program's result is the layer of Proof/Layer.lean, with its neighbourhood means left as the stage
   that computes them (the gather of source rows, the two scatter-additions by destination and the division by the
   clamped count): that stage is never opened, because the tiled program computes it by the same operations.

   From the means on, the reference multiplies by the transposed weight matrices (a product's entry is a sum over the
   contracted coordinate, and a transposed matrix read at (k, j) is the matrix at (j, k)), adds the bias repeated down
   the rows, adds the two products in the layer's grouping, and clamps at zero. -/
import proofs.«113025_j78804059947264_1_alg».proof.Proof.Gen.ReferenceIdeal.Read
import proofs.«113025_j78804059947264_1_alg».proof.Proof.Layer

noncomputable section

namespace Cert.ReferenceIdeal.RefLayer

open Cert.ReferenceIdeal Cert.ReferenceIdeal.Read Idealize.ShloMosaic Idealize.ShloMosaic.ValueIdx
open scoped BigOperators

/-- The means operand of the first product at (i, k): row of `i`, column `k`. -/
theorem means_at (i : S100000x128.Idx) (k : Fin 128) : lidx_main_v24 i k = ix2 (i 0) k :=
  funext fun a => Fin.ext (by match a with | ⟨0, _⟩ => rfl | ⟨1, _⟩ => rfl)

/-- The transposed left weights at (k, column of `i`) are the weights at (column of `i`, k). -/
theorem wl_at (i : S100000x128.Idx) (k : Fin 128) : idx_main_v23 (ridx_main_v24 i k) = ix2 (i 1) k :=
  funext fun a => Fin.ext (by match a with | ⟨0, _⟩ => rfl | ⟨1, _⟩ => rfl)

/-- The features operand of the second product at (i, k). -/
theorem feats_at (i : S100000x128.Idx) (k : Fin 128) : lidx_main_v29 i k = ix2 (i 0) k :=
  funext fun a => Fin.ext (by match a with | ⟨0, _⟩ => rfl | ⟨1, _⟩ => rfl)

/-- The transposed right weights at (k, column of `i`) are the weights at (column of `i`, k). -/
theorem wr_at (i : S100000x128.Idx) (k : Fin 128) : idx_main_v28 (ridx_main_v29 i k) = ix2 (i 1) k :=
  funext fun a => Fin.ext (by match a with | ⟨0, _⟩ => rfl | ⟨1, _⟩ => rfl)

/-- The bias repeated down the rows, at `i`, is the bias at the column of `i`. -/
theorem bias_at (i : S100000x128.Idx) : idx_main_v25 (idx_main_v26 i) = ix1 (i 1) :=
  funext fun a => Fin.ext (by match a with | ⟨0, _⟩ => rfl)

/-- The reference's result is the layer of its own means stage and the arguments. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4 = Cert.Layer.layer (val_main_v22 (F := Ideal) x0 x1) x0 x2 x3 x4 := by
  funext i
  rw [val_main_v31_apply, val_main_v30_apply, val_main_v27_apply, val_main_v24_apply, val_main_v29_apply,
    val_main_v26_apply, val_main_v25_apply, val_main_call0_v0_apply, val_main_call0_cst_apply]
  simp only [val_main_v23_apply, val_main_v28_apply, means_at, wl_at, feats_at, wr_at, bias_at,
    Ideal.maximumf_def, Ideal.addf_def, Ideal.ofBits_def]
  rfl

end Cert.ReferenceIdeal.RefLayer

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Tile.lean ====
/- What the kernel body leaves in its output tile, entry by entry.

   The body loads a tile of 5000 rows of the neighbourhood means and the same rows of the features, the two transposed
   weight matrices and the one-row bias, and stores
     max ( (means · wlT + bias row) + features · wrT , 0 ).
   Each matrix product is accumulated onto a zero tile, so over the extended reals its entry (p, q) is the plain sum
   over k of left (p, k) · right (k, q); the bias row is repeated down the rows. -/
import proofs.«113025_j78804059947264_1_alg».proof.Proof.Gen.KernelIdeal.Frame
import proofs.«113025_j78804059947264_1_alg».proof.Proof.LibDotPlain
import proofs.«113025_j78804059947264_1_alg».proof.Proof.Layer
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.TcCoe Idealize.ShloMosaic.ValueIdx
open scoped BigOperators

theorem origin : (![0, 0] : Fin 2 → Nat) = fun _ => 0 := funext fun a => by fin_cases a <;> rfl

/-- The one-row bias repeated down the tile's rows: entry (p, q) is the row's entry q. -/
theorem bias_rows (x3 : Vec Ideal S1x128 .f32) (p : Fin 5000) (q : Fin 128) :
    broadcastTo S5000x128 x3 broadcasts_S1x128_S5000x128 (ix2 p q) = x3 (ix2 0 q) :=
  broadcastTo_apply x3 broadcasts_S1x128_S5000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- A tile times a weight matrix, accumulated onto zero: entry (p, q) is the sum over k of tile (p, k) · weights (k, q). -/
theorem product (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.DotPlain.matmul_zero_rows_cols dot_S5000x128_S128x128_S5000x128_1_0_0_1_n_n rfl rfl rfl rfl rfl rfl none l r p q

/-- The stored tile at entry (p, q). -/
theorem tile_apply (x0 x1 : Vec Ideal S5000x128 .f32) (x2 : Vec Ideal S128x128 .f32) (x3 : Vec Ideal S1x128 .f32)
    (x4 : Vec Ideal S128x128 .f32) (p : Fin 5000) (q : Fin 128) :
    out0_5 (F := Ideal) x0 x1 x2 x3 x4 (ix2 p q)
      = max (((∑ k : Fin 128, x0 (ix2 p k) * x2 (ix2 k q)) + x3 (ix2 0 q)) + ∑ k : Fin 128, x1 (ix2 p k) * x4 (ix2 k q))
          Cert.Layer.zero := by
  unfold out0_5
  rw [View.canon_unit_zero origin]
  simp only [View.ld_unit_zero (S := S5000x128) origin, View.ld_unit_zero (S := S128x128) origin,
    View.ld_unit_zero (S := S1x128) origin]
  unfold k0_pay1
  simp only [shapeCast_self]
  show max ((matmul dot_S5000x128_S128x128_S5000x128_1_0_0_1_n_n none (x0 : FVec Ideal S5000x128 .f32) (x2 : FVec Ideal S128x128 .f32)
        (constant (F := Ideal) S5000x128 .f32 0x00000000#32) (ix2 p q)
      + broadcastTo S5000x128 x3 broadcasts_S1x128_S5000x128 (ix2 p q))
      + matmul dot_S5000x128_S128x128_S5000x128_1_0_0_1_n_n none (x1 : FVec Ideal S5000x128 .f32) (x4 : FVec Ideal S128x128 .f32)
        (constant (F := Ideal) S5000x128 .f32 0x00000000#32) (ix2 p q)) (Ideal.ofBits .f32 0x00000000#32) = _
  rw [product, product, bias_rows]

end Cert.KernelIdeal.Tile

end
-- ==== Proof.Rows.lean ====
/- Where a tile's entries sit in the arrays, for any contents.

   The grid has 20 points. At point `t` the two row-tiled inputs and the output hold rows 5000·t … 5000·t + 4999 of
   their arrays, and the weight and bias windows hold their whole arrays at every point. The facts are stated for an
   arbitrary array (a variable), so that they say only where an entry is read, never what the array holds. Every row
   of the output array belongs to some point's tile: row `r` to point `r / 5000`. -/
import proofs.«113025_j78804059947264_1_alg».proof.Proof.Gen.KernelIdeal.Frame
import proofs.«113025_j78804059947264_1_alg».proof.Proof.Layer
import Idealize.ShloMosaic.Lib.Pipeline.Value
import Idealize.ShloMosaic.Lib.ValueIdx
import Idealize.ShloMosaic.Lib.Tactic

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-- The block index maps over the grid: the row tiles move with the point, everything else stays at block 0. -/
theorem steps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (c : Dev nD)

/-- Entry (p, k) of point `t`'s tile of the first row-tiled input is entry (5000·t + p, k) of its array. -/
theorem read_means (A : Buf (Elt Ideal) ((c : Thread nD τ).loc (Pipeline.arrRef spec0 0))) (t : Fin cfg0.N) (p : Fin 5000) (k : Fin 128)
    (n : Fin 100000) (hn : n.val = 5000 * t.val + p.val) :
    (((cfg0.win 0).blk t).view.read (Elt Ideal) A : Vec Ideal S5000x128 .f32) (ix2 p k) = (A : Cert.Layer.Nodes.Idx → EReal) (ix2 n k) := by
  obtain ⟨a0, a1, -⟩ := steps t
  show A (((cfg0.win 0).blk t).view.emb (ix2 p k)) = A (ix2 n k)
  refine congrArg A (funext fun a => Fin.ext ?_)
  match a with
  | ⟨0, _⟩ => show win0_0.index t (0 : Fin 2) * 5000 + 1 * p.val = n.val; rw [a0, hn]; omega
  | ⟨1, _⟩ => show win0_0.index t (1 : Fin 2) * 128 + 1 * k.val = k.val; rw [a1]; omega

/-- Entry (p, k) of point `t`'s tile of the second row-tiled input is entry (5000·t + p, k) of its array. -/
theorem read_feats (A : Buf (Elt Ideal) ((c : Thread nD τ).loc (Pipeline.arrRef spec0 1))) (t : Fin cfg0.N) (p : Fin 5000) (k : Fin 128)
    (n : Fin 100000) (hn : n.val = 5000 * t.val + p.val) :
    (((cfg0.win 1).blk t).view.read (Elt Ideal) A : Vec Ideal S5000x128 .f32) (ix2 p k) = (A : Cert.Layer.Nodes.Idx → EReal) (ix2 n k) := by
  obtain ⟨-, -, b0, b1, -⟩ := steps t
  show A (((cfg0.win 1).blk t).view.emb (ix2 p k)) = A (ix2 n k)
  refine congrArg A (funext fun a => Fin.ext ?_)
  match a with
  | ⟨0, _⟩ => show win0_1.index t (0 : Fin 2) * 5000 + 1 * p.val = n.val; rw [b0, hn]; omega
  | ⟨1, _⟩ => show win0_1.index t (1 : Fin 2) * 128 + 1 * k.val = k.val; rw [b1]; omega

/-- Every point's tile of the first weight window is the whole array. -/
theorem read_wl (A : Buf (Elt Ideal) ((c : Thread nD τ).loc (Pipeline.arrRef spec0 2))) (t : Fin cfg0.N) (k q : Fin 128) :
    (((cfg0.win 2).blk t).view.read (Elt Ideal) A : Vec Ideal S128x128 .f32) (ix2 k q) = (A : Cert.Layer.Weights.Idx → EReal) (ix2 k q) := by
  obtain ⟨-, -, -, -, c0, c1, -⟩ := steps t
  show A (((cfg0.win 2).blk t).view.emb (ix2 k q)) = A (ix2 k q)
  refine congrArg A (funext fun a => Fin.ext ?_)
  match a with
  | ⟨0, _⟩ => show win0_2.index t (0 : Fin 2) * 128 + 1 * k.val = k.val; rw [c0]; omega
  | ⟨1, _⟩ => show win0_2.index t (1 : Fin 2) * 128 + 1 * q.val = q.val; rw [c1]; omega

/-- Every point's tile of the bias window is the whole one-row array. -/
theorem read_bias (A : Buf (Elt Ideal) ((c : Thread nD τ).loc (Pipeline.arrRef spec0 3))) (t : Fin cfg0.N) (q : Fin 128) :
    (((cfg0.win 3).blk t).view.read (Elt Ideal) A : Vec Ideal S1x128 .f32) (ix2 0 q) = (A : (⟨2, ![1, 128]⟩ : Shape).Idx → EReal) (ix2 0 q) := by
  obtain ⟨-, -, -, -, -, -, d0, d1, -⟩ := steps t
  show A (((cfg0.win 3).blk t).view.emb (ix2 0 q)) = A (ix2 0 q)
  refine congrArg A (funext fun a => Fin.ext ?_)
  match a with
  | ⟨0, _⟩ => show win0_3.index t (0 : Fin 2) * 1 + 1 * 0 = 0; rw [d0]
  | ⟨1, _⟩ => show win0_3.index t (1 : Fin 2) * 128 + 1 * q.val = q.val; rw [d1]; omega

/-- Every point's tile of the second weight window is the whole array. -/
theorem read_wr (A : Buf (Elt Ideal) ((c : Thread nD τ).loc (Pipeline.arrRef spec0 4))) (t : Fin cfg0.N) (k q : Fin 128) :
    (((cfg0.win 4).blk t).view.read (Elt Ideal) A : Vec Ideal S128x128 .f32) (ix2 k q) = (A : Cert.Layer.Weights.Idx → EReal) (ix2 k q) := by
  obtain ⟨-, -, -, -, -, -, -, -, e0, e1, -⟩ := steps t
  show A (((cfg0.win 4).blk t).view.emb (ix2 k q)) = A (ix2 k q)
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Entry (p, q) of point `t`'s tile of the output is entry (5000·t + p, q) of the output array. -/
theorem read_out (G : Buf (Elt Ideal) ((c : Thread nD τ).loc (Pipeline.arrRef spec0 5))) (t : Fin cfg0.N) (p : Fin 5000) (q : Fin 128)
    (n : Fin 100000) (hn : n.val = 5000 * t.val + p.val) :
    (((cfg0.win 5).blk t).view.read (Elt Ideal) G : Vec Ideal S5000x128 .f32) (ix2 p q) = (G : Cert.Layer.Nodes.Idx → EReal) (ix2 n q) := by
  obtain ⟨-, -, -, -, -, -, -, -, -, -, o0, o1⟩ := steps t
  show G (((cfg0.win 5).blk t).view.emb (ix2 p q)) = G (ix2 n q)
  refine congrArg G (funext fun a => Fin.ext ?_)
  match a with
  | ⟨0, _⟩ => show win0_5.index t (0 : Fin 2) * 5000 + 1 * p.val = n.val; rw [o0, hn]; omega
  | ⟨1, _⟩ => show win0_5.index t (1 : Fin 2) * 128 + 1 * q.val = q.val; rw [o1]; omega

/-- No tile of the output overhangs the array: what a point writes back is the whole tile the body left. -/
theorem whole_tile (t : Fin cfg0.N) (X : Vec Ideal S5000x128 .f32) : (cfg0.win 5).cut (grid0.coords t) X = X := rfl

/-- An index of the output array is in point `t`'s tile iff each coordinate is in the tile's range on its axis. -/
theorem mem_tile (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The twenty tiles cover the output array: row `r` is in the tile of point `r / 5000`. -/
theorem covered (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, o0, o1⟩ := steps ⟨(i 0).val / 5000, ht⟩
  refine ⟨⟨(i 0).val / 5000, ht⟩, flush0_5 _, ?_⟩
  rw [mem_tile]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [o1]; omega

end Cert.KernelIdeal.Rows

end
-- ==== Proof.Tiles.lean ====
/- From the tiles to the whole output array.

   Point `t` of the grid receives rows 5000·t … 5000·t + 4999 of the neighbourhood means and of the features, the whole
   transposed weight matrices and the whole one-row bias, and writes back rows 5000·t … 5000·t + 4999 of the output.
   Every tile it writes is the corresponding rows of ONE function of the arrays as the region finds them — the layer of
   Proof/Layer.lean in its transposed-operand form — and the twenty tiles cover the array, so after the run the output
   array is that function. -/
import proofs.«113025_j78804059947264_1_alg».proof.Proof.Gen.KernelIdeal.Value
import proofs.«113025_j78804059947264_1_alg».proof.Proof.Tile
import proofs.«113025_j78804059947264_1_alg».proof.Proof.Rows
import proofs.«113025_j78804059947264_1_alg».proof.Proof.Layer
import Idealize.ShloMosaic.Lib.Pipeline.Value
import Idealize.ShloMosaic.Lib.ValueIdx
import Idealize.ShloMosaic.Lib.Tactic

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-! ## The arrays the region finds, at their literal types -/

/-- The neighbourhood means (computed by the host operations before the region). -/
abbrev means (c : Dev nD) : Cert.Layer.Nodes.Idx → EReal := V m c (Pipeline.arrRef spec0 0)
/-- The node features. -/
abbrev feats (c : Dev nD) : Cert.Layer.Nodes.Idx → EReal := V m c (Pipeline.arrRef spec0 1)
/-- The left weights, transposed. -/
abbrev wlT (c : Dev nD) : Cert.Layer.Weights.Idx → EReal := V m c (Pipeline.arrRef spec0 2)
/-- The bias as a one-row matrix. -/
abbrev brow (c : Dev nD) : (⟨2, ![1, 128]⟩ : Shape).Idx → EReal := V m c (Pipeline.arrRef spec0 3)
/-- The right weights, transposed. -/
abbrev wrT (c : Dev nD) : Cert.Layer.Weights.Idx → EReal := V m c (Pipeline.arrRef spec0 4)

/-- The layer of the arrays the region finds: what the output array is shown to end at. -/
abbrev result (c : Dev nD) : Cert.Layer.Nodes.Idx → EReal :=
  Cert.Layer.layerT (means m c) (feats m c) (wlT m c) (brow m c) (wrT m c)

/-! ## Each input tile as rows of its array -/

theorem means_tile (c : Dev nD) (t : Fin cfg0.N) (p : Fin 5000) (k : Fin 128) (n : Fin 100000) (hn : n.val = 5000 * t.val + p.val) :
    (iblk m c 0 t : Vec Ideal S5000x128 .f32) (ix2 p k) = means m c (ix2 n k) :=
  Rows.read_means c (V m c (Pipeline.arrRef spec0 0)) t p k n hn

theorem feats_tile (c : Dev nD) (t : Fin cfg0.N) (p : Fin 5000) (k : Fin 128) (n : Fin 100000) (hn : n.val = 5000 * t.val + p.val) :
    (iblk m c 1 t : Vec Ideal S5000x128 .f32) (ix2 p k) = feats m c (ix2 n k) :=
  Rows.read_feats c (V m c (Pipeline.arrRef spec0 1)) t p k n hn

theorem wlT_tile (c : Dev nD) (t : Fin cfg0.N) (k q : Fin 128) :
    (iblk m c 2 t : Vec Ideal S128x128 .f32) (ix2 k q) = wlT m c (ix2 k q) :=
  Rows.read_wl c (V m c (Pipeline.arrRef spec0 2)) t k q

theorem brow_tile (c : Dev nD) (t : Fin cfg0.N) (q : Fin 128) :
    (iblk m c 3 t : Vec Ideal S1x128 .f32) (ix2 0 q) = brow m c (ix2 0 q) :=
  Rows.read_bias c (V m c (Pipeline.arrRef spec0 3)) t q

theorem wrT_tile (c : Dev nD) (t : Fin cfg0.N) (k q : Fin 128) :
    (iblk m c 4 t : Vec Ideal S128x128 .f32) (ix2 k q) = wrT m c (ix2 k q) :=
  Rows.read_wr c (V m c (Pipeline.arrRef spec0 4)) t k q

/-! ## The tile a point writes is rows of the layer -/

/-- Entry (p, q) of the tile point `t` stores is the layer's entry at node 5000·t + p, feature q. -/
theorem stored_entry (c : Dev nD) (t : Fin cfg0.N) (p : Fin 5000) (q : Fin 128) (n : Fin 100000) (hn : n.val = 5000 * t.val + p.val) :
    out0_5 (F := Ideal) (iblk m c 0 t) (iblk m c 1 t) (iblk m c 2 t) (iblk m c 3 t) (iblk m c 4 t) (ix2 p q)
      = Cert.Layer.entryT (means m c) (feats m c) (wlT m c) (brow m c) (wrT m c) n q := by
  refine (Tile.tile_apply (iblk m c 0 t) (iblk m c 1 t) (iblk m c 2 t) (iblk m c 3 t) (iblk m c 4 t) p q).trans ?_
  unfold Cert.Layer.entryT
  rw [brow_tile m c t q]
  simp only [means_tile m c t p _ n hn, feats_tile m c t p _ n hn, wlT_tile m c t, wrT_tile m c t]

/-- What point `t` writes back is its tile of `result`. -/
theorem flushed_eq (c : Dev nD) (t : Fin cfg0.N) :
    (dats m 0 c).flushed 5 t = ((cfg0.win 5).blk t).view.read (Elt Ideal) (result m c) := by
  rw [Value.flushed5, Rows.whole_tile]
  funext j
  obtain ⟨p, q, rfl⟩ : ∃ (p : Fin 5000) (q : Fin 128), j = ix2 p q := ⟨j 0, j 1, eq_ix2 j⟩
  have hN : cfg0.N = 20 := N_0
  have hlt : 5000 * t.val + p.val < 100000 := by have := t.isLt; have := p.isLt; omega
  refine (stored_entry m c t p q ⟨5000 * t.val + p.val, hlt⟩ rfl).trans ?_
  exact (Rows.read_out c (result m c) t p q ⟨5000 * t.val + p.val, hlt⟩ rfl).symm

/-- The twenty tiles cover the array, so after the run the output array is `result`. -/
theorem final (c : Dev nD) : (dats m 0 c).arrAt 5 cfg0.N = result m c :=
  (dats m 0 c).arrAt_eq_of_cover 5 (result m c) (fun t _ => flushed_eq m c t) Rows.covered

/-- The run, read: the output array at `result`, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Tiles

end
-- ==== Proof.Prefix.lean ====
/- What the host operations before the region leave in the arrays the region's windows read.

   The neighbourhood means: for each edge the source node's feature row is gathered (a negative source index first
   shifted by the node count), the rows are added up by destination node, the number of edges into each node is
   counted the same way, and each sum is divided by the count clamped below at one. This term is kept as ONE closed
   definition: the reference computes its means by the same operations, and the two are compared as terms, never
   evaluated. The two weight matrices are transposed and the bias is reshaped to one row; those are read at an index. -/
import proofs.«113025_j78804059947264_1_alg».proof.Proof.Gen.KernelIdeal.Frame
import proofs.«113025_j78804059947264_1_alg».proof.Proof.Layer
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.Tactic Idealize.ShloMosaic.ValueIdx

variable {F : FTy → Type} [FloatOps F]

/-- The neighbourhood means as a term of the features `x0` and the edge list `x1`. -/
def meansOf (x0 : (⟨S100000x128, .f32⟩ : BufTy).Contents (Elt F)) (x1 : (⟨S2x1600000, .i32⟩ : BufTy).Contents (Elt F)) :
    (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] (x1) slices_S2x1600000_S1x1600000_1_0) shapeCasts_S1x1600000_S1600000)) (Host.gather gather_S100000x128_S1600000x1_S1600000x128_1_0_n_n_0_1_1128 (x0) (broadcastInDim S1600000x1 ![0] bcast_S1600000_S1600000x1_0 (select (cmpi .slt (shapeCast _ (extractStridedSlice S1x1600000 ![0, 0] (x1) slices_S2x1600000_S1x1600000_0_0) shapeCasts_S1x1600000_S1600000) (broadcastInDim S1600000 ![] bcast_S_S1600000 (constantI S_ 32 0#32))) (addi (shapeCast _ (extractStridedSlice S1x1600000 ![0, 0] (x1) slices_S2x1600000_S1x1600000_0_0) shapeCasts_S1x1600000_S1600000) (broadcastInDim S1600000 ![] bcast_S_S1600000 (constantI S_ 32 100000#32))) (shapeCast _ (extractStridedSlice S1x1600000 ![0, 0] (x1) slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] (x1) slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

variable (m : (ℓ : Loc nD τ sig) → Buf (Elt F) ℓ)

set_option maxRecDepth 8192 in
set_option maxHeartbeats 2000000 in
/-- The region finds the means array at `meansOf` of the two arguments. -/
theorem means_eq (c : Dev nD) :
    (V m c main_v22 : (⟨S100000x128, .f32⟩ : BufTy).Contents (Elt F))
      = meansOf (m ((c : Thread nD τ).loc main_arg0)) (m ((c : Thread nD τ).loc main_arg1)) := by
  unfold meansOf
  dsimp only [Gen.V, Gen.hostOps0]
  after_results_simp <;> rfl

/-- The region finds the left weights transposed. -/
theorem wlT_eq (c : Dev nD) :
    (V m c main_v23 : (⟨S128x128, .f32⟩ : BufTy).Contents (Elt F))
      = transpose S128x128 [1, 0] (m ((c : Thread nD τ).loc main_arg2)) transposes_S128x128_S128x128_1_0 := by
  dsimp only [Gen.V, Gen.hostOps0]
  after_results_simp <;> rfl

/-- The region finds the right weights transposed. -/
theorem wrT_eq (c : Dev nD) :
    (V m c main_v24 : (⟨S128x128, .f32⟩ : BufTy).Contents (Elt F))
      = transpose S128x128 [1, 0] (m ((c : Thread nD τ).loc main_arg4)) transposes_S128x128_S128x128_1_0 := by
  dsimp only [Gen.V, Gen.hostOps0]
  after_results_simp <;> rfl

/-- The region finds the bias reshaped to one row. -/
theorem brow_eq (c : Dev nD) :
    (V m c main_v25 : (⟨S1x128, .f32⟩ : BufTy).Contents (Elt F))
      = shapeCast _ (m ((c : Thread nD τ).loc main_arg3)) shapeCasts_S128_S1x128 := by
  dsimp only [Gen.V, Gen.hostOps0]
  after_results_simp <;> rfl

/-- A transposed weight matrix at (k, j) is the matrix at (j, k). -/
theorem transposed_at (w : (⟨S128x128, .f32⟩ : BufTy).Contents (Elt F)) (k j : Fin 128) :
    transpose S128x128 [1, 0] w transposes_S128x128_S128x128_1_0 (ix2 k j) = w (ix2 j k) :=
  transpose_apply [1, 0] w transposes_S128x128_S128x128_1_0 (ix2 k j) (ix2 j k) (fun b => match b with
    | ⟨0, _⟩ => rfl
    | ⟨1, _⟩ => rfl)

/-- The one-row bias at (0, j) is the bias at j. -/
theorem row_at (b : (⟨S128, .f32⟩ : BufTy).Contents (Elt F)) (j : Fin 128) :
    shapeCast S1x128 b shapeCasts_S128_S1x128 (ix2 0 j) = b (ix1 j) :=
  shapeCast_apply b shapeCasts_S128_S1x128 (ix2 0 j) (ix1 j)
    (by rewrite [Shape.rowMajor_val_two, Shape.rowMajor_val_one]; show j.val = 0 * 128 + j.val; omega)

end Cert.KernelIdeal.Prefix

end
-- ==== Proof.SameMeans.lean ====
/- The two programs compute the neighbourhood means by the same operations.

   The tiled program's host operations before the region and the reference's first stages are the same slice, reshape,
   index shift, gather, scatter-additions, clamp, broadcasts and division, over equal shape records: the two terms
   are one term, and are compared as terms — the gather and the scatter-additions are never opened. -/
import proofs.«113025_j78804059947264_1_alg».proof.Proof.Prefix
import proofs.«113025_j78804059947264_1_alg».proof.Proof.Gen.ReferenceIdeal.Read

noncomputable section

namespace Cert.SameMeans

open Idealize.ShloMosaic

/-- The tiled program's means term is the reference's means stage. -/
theorem means_same (x0 : (⟨Cert.KernelIdeal.S100000x128, .f32⟩ : BufTy).Contents (Elt Ideal))
    (x1 : (⟨Cert.KernelIdeal.S2x1600000, .i32⟩ : BufTy).Contents (Elt Ideal)) :
    Cert.KernelIdeal.Prefix.meansOf (F := Ideal) x0 x1 = Cert.ReferenceIdeal.Read.val_main_v22 (F := Ideal) x0 x1 := rfl

end Cert.SameMeans

end
-- ==== Proof.lean ====
/- A mean-aggregating graph convolution layer, tiled over the nodes, against its plain reference.

   Both programs first compute, by the same host operations, the matrix of neighbourhood means: for every edge the
   source node's feature row is gathered, the rows are added up by destination node and divided by the number of
   edges into that node (at least one). The reference then computes, for node n and output feature j,

     out[n, j] = max ( (Σ_k mean[n, k] · W_l[j, k] + b[j]) + Σ_k x[n, k] · W_r[j, k] , 0 )

   with two matrix products over the whole arrays. The tiled program transposes the two weight matrices and reshapes
   the bias to one row on the host, and a region of twenty grid points computes the same expression on tiles of 5000
   node rows, each product accumulated onto a zero tile. Over the extended reals a product's entry is the plain sum
   over the contracted coordinate on both sides, in the same grouping, so the two results agree entry by entry with no
   law beyond reading each operation at an index; finiteness of the inputs is not used.

   Proof/Layer.lean states the layer as one function; Proof/RefLayer.lean shows the reference's result is it;
   Proof/Tile.lean reads the stored tile at an entry, Proof/Rows.lean places tiles in their arrays, Proof/Tiles.lean
   assembles the output array from the twenty tiles; Proof/Prefix.lean reads the arrays the host operations prepare
   and Proof/SameMeans.lean identifies the two programs' means. The frames are the generated ones. -/
import proofs.«113025_j78804059947264_1_alg».proof.Defs
import proofs.«113025_j78804059947264_1_alg».proof.Proof.Gen.Kernel
import proofs.«113025_j78804059947264_1_alg».proof.Proof.Gen.Kernel.Skeleton
import proofs.«113025_j78804059947264_1_alg».proof.Proof.Gen.Kernel.Launch
import proofs.«113025_j78804059947264_1_alg».proof.Proof.Gen.Kernel.Points
import proofs.«113025_j78804059947264_1_alg».proof.Proof.Gen.Kernel.Frame
import proofs.«113025_j78804059947264_1_alg».proof.Proof.Gen.KernelIdeal
import proofs.«113025_j78804059947264_1_alg».proof.Proof.Gen.KernelIdeal.Skeleton
import proofs.«113025_j78804059947264_1_alg».proof.Proof.Gen.KernelIdeal.Launch
import proofs.«113025_j78804059947264_1_alg».proof.Proof.Gen.KernelIdeal.Points
import proofs.«113025_j78804059947264_1_alg».proof.Proof.Gen.KernelIdeal.Frame
import proofs.«113025_j78804059947264_1_alg».proof.Proof.Gen.ReferenceIdeal
import proofs.«113025_j78804059947264_1_alg».proof.Proof.Gen.Pre_finite_inputs
import proofs.«113025_j78804059947264_1_alg».proof.Proof.Gen.KernelIdeal.Value
import proofs.«113025_j78804059947264_1_alg».proof.Proof.Gen.ReferenceIdeal.Run
import proofs.«113025_j78804059947264_1_alg».proof.Proof.Gen.ReferenceIdeal.Read
import proofs.«113025_j78804059947264_1_alg».proof.Proof.Layer
import proofs.«113025_j78804059947264_1_alg».proof.Proof.RefLayer
import proofs.«113025_j78804059947264_1_alg».proof.Proof.Tiles
import proofs.«113025_j78804059947264_1_alg».proof.Proof.Prefix
import proofs.«113025_j78804059947264_1_alg».proof.Proof.SameMeans
import Idealize.ShloMosaic.Adequacy
import Idealize.ShloMosaic.Init

noncomputable section

namespace Cert.Proof

open Idealize.ShloMosaic Idealize.ShloMosaic.TcCoe Idealize.SL.Sem Idealize.ShloMosaic.ValueIdx

/-- The array the tiled program's output ends at is the layer of the reference's means stage and the arguments: the
    means are the same term, the features are the argument as launched, a transposed weight matrix read at (k, j) is
    the matrix at (j, k), and the one-row bias at (0, j) is the bias at j. -/
theorem result_layer (m : (ℓ : Loc Cert.KernelIdeal.nD Cert.KernelIdeal.τ Cert.KernelIdeal.sig) → Buf (Elt Ideal) ℓ)
    (c : Dev Cert.KernelIdeal.nD) :
    Cert.KernelIdeal.Tiles.result m c
      = Cert.Layer.layer
          (Cert.ReferenceIdeal.Read.val_main_v22 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg0))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  have hm : Cert.KernelIdeal.Tiles.means m c
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) :=
    (Cert.KernelIdeal.Prefix.means_eq m c).trans (Cert.SameMeans.means_same _ _)
  have hx : Cert.KernelIdeal.Tiles.feats m c
      = m ((c : Thread Cert.KernelIdeal.nD Cert.KernelIdeal.τ).loc Cert.KernelIdeal.main_arg0) :=
    Cert.KernelIdeal.Gen.V_main_arg0 m c
  refine (Cert.Layer.layerT_eq (Cert.KernelIdeal.Tiles.means m c) (Cert.KernelIdeal.Tiles.feats m c)
    (m ((c : Thread Cert.KernelIdeal.nD Cert.KernelIdeal.τ).loc Cert.KernelIdeal.main_arg2))
    (m ((c : Thread Cert.KernelIdeal.nD Cert.KernelIdeal.τ).loc Cert.KernelIdeal.main_arg4))
    (Cert.KernelIdeal.Tiles.wlT m c) (Cert.KernelIdeal.Tiles.wrT m c)
    (m ((c : Thread Cert.KernelIdeal.nD Cert.KernelIdeal.τ).loc Cert.KernelIdeal.main_arg3))
    (Cert.KernelIdeal.Tiles.brow m c)
    (fun k j => (congrFun (Cert.KernelIdeal.Prefix.wlT_eq m c) (ix2 k j)).trans (Cert.KernelIdeal.Prefix.transposed_at _ k j))
    (fun k j => (congrFun (Cert.KernelIdeal.Prefix.wrT_eq m c) (ix2 k j)).trans (Cert.KernelIdeal.Prefix.transposed_at _ k j))
    (fun j => (congrFun (Cert.KernelIdeal.Prefix.brow_eq m c) (ix2 0 j)).trans (Cert.KernelIdeal.Prefix.row_at _ j))).trans ?_
  rw [hm, hx]

/-- The word-level program runs and leaves its arguments as launched: the generated frame. -/
theorem frame_kernel : Cert.frame_Kernel := fun m ρ _ => Cert.Kernel.Gen.frame m ρ

/-- So does the idealized program. -/
theorem frame_kernel_ideal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the layer of the same means and the same arguments. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefLayer.result_eq,
    (hagree c).1, (hagree c).2.1, (hagree c).2.2.1, (hagree c).2.2.2.1, (hagree c).2.2.2.2]
  exact (result_layer m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
